-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩

class Facts : Prop where
  bcast_S_S50000x127 : S_.BroadcastsInDim S50000x127 (![] : Fin 0 → Fin S50000x127.rank)
  reducesTo_S50000x127_S_d0_1 : S50000x127.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S320x64 : S_.BroadcastsInDim S320x64 (![] : Fin 0 → Fin S320x64.rank)
  reducesTo_S320x64_S_d0_1 : S320x64.ReducesTo [0, 1] S_

variable [Facts]

def fn_part1 {F : FTy → Type} [FloatOps F] (main_arg6 : FVec F S64 .f32) (main_arg7 : FVec F S320x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x64 .f32 := Host.absf main_arg7
  let main_cst_8 : FVec F S_ .f32 := constant S_ .f32 0x7F800000#32
  let main_v25 : FVec F S320x64 .f32 := broadcastInDim S320x64 ![] bcast_S_S320x64 main_cst_8
  let main_v26 : IVec S320x64 1 := cmpf .olt main_v24 main_v25
  let main_c_9 : IVec S_ 1 := constantI S_ 1 1#1
  let main_v27 : IVec S_ 1 := (fun x v => Host.reduce IntOp.andi x v reducesTo_S320x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x127 .f32) (main_arg1 : IVec S1600000 32) (main_arg2 : IVec S1600000 32) (main_arg3 : FVec F S128x128 .f32) (main_arg4 : FVec F S128 .f32) (main_arg5 : FVec F S128x64 .f32) (main_arg6 : FVec F S64 .f32) (main_arg7 : FVec F S320x64 .f32) (main_arg8 : FVec F S64 .f32) : IVec S_ 1 :=
  let main_v0 : FVec F S50000x127 .f32 := Host.absf main_arg0
  let main_cst : FVec F S_ .f32 := constant S_ .f32 0x7F800000#32
  let main_v1 : FVec F S50000x127 .f32 := broadcastInDim S50000x127 ![] bcast_S_S50000x127 main_cst
  let main_v2 : IVec S50000x127 1 := cmpf .olt main_v0 main_v1
  let main_c : IVec S_ 1 := constantI S_ 1 1#1
  let main_v3 : IVec S_ 1 := (fun x v => Host.reduce IntOp.andi x v reducesTo_S50000x127_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S2000x320 : Shape := ⟨2, ![2000, 320]⟩

abbrev nBuf : Space → Nat
  | .hbm => 72
  | .vmem => 18
  | .smem => 0
  | _ => 0

abbrev bufTy : (tb : Table) → Fin (tcTables nBuf tb) → BufTy
  | .hbm, ⟨0, _⟩ => ⟨S50000x127, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S320x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S50000x1, .f32⟩
  | .hbm, ⟨16, _⟩ => ⟨S50000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .i1⟩
  | .hbm, ⟨38, _⟩ => ⟨S50000x128, .f32⟩
  | .hbm, ⟨39, _⟩ => ⟨S50000x128, .f32⟩
  | .hbm, ⟨40, _⟩ => ⟨S50000x128, .i1⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x1, .f32⟩
  | .hbm, ⟨62, _⟩ => ⟨S_, .f32⟩
  | .hbm, ⟨63, _⟩ => ⟨S50000x1, .f32⟩
  | .hbm, ⟨64, _⟩ => ⟨S50000x1, .i1⟩
  | .hbm, ⟨65, _⟩ => ⟨S50000x128, .f32⟩
  | .hbm, ⟨66, _⟩ => ⟨S50000x128, .f32⟩
  | .hbm, ⟨67, _⟩ => ⟨S50000x128, .i1⟩
  | .hbm, ⟨68, _⟩ => ⟨S50000x128, .f32⟩
  | .hbm, ⟨69, _⟩ => ⟨S1x64, .f32⟩
  | .hbm, ⟨70, _⟩ => ⟨S1x64, .f32⟩
  | .hbm, ⟨71, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S1x64, .f32⟩
  | .local _ .vmem, ⟨14, _⟩ => ⟨S320x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S320x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x127_S50000x128_d1 : Shape.Concatenates [S50000x1, S50000x127] S50000x128 1
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x128_S2000x128_S2000x64_S2000x320_d1 : Shape.Concatenates [S2000x128, S2000x128, S2000x64] S2000x320 1
  inb_S320x64_S320x64_0_0 : ∀ a, (![0, 0] : Fin 2 → Nat) a + S320x64.size a ≤ S320x64.size a
  h_S320x64 : 0 < S320x64.numel
  inb_S2000x64_S2000x64_0_0 : ∀ a, (![0, 0] : Fin 2 → Nat) a + S2000x64.size a ≤ S2000x64.size a
  h_S2000x64 : 0 < S2000x64.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x320_S320x64_S2000x64_1_0_0_1_n_n_wf : DotDims.WF S2000x320 S320x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S320x64.size a ≤ S320x64.size a
  hwx1_5 : ∀ i : grid1.Coords, EltTy.bits .f32 = 32 ∨ (Rect.block (s := S320x64) S320x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x320_S320x64_S2000x64_1_0_0_1_n_n : DotDims S2000x320 S320x64 S2000x64 where
  lhsContracting := [1]
  rhsContracting := [0]
  lhsNonContracting := [0]
  rhsNonContracting := [1]
  lhsBatch := []
  rhsBatch := []
  wf := dot_S2000x320_S320x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S320x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x127 : Shape := ⟨2, ![50000, 127]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320x64 : Shape := ⟨2, ![320, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x64 : Shape := ⟨2, ![50000, 64]⟩
abbrev S1x64 : Shape := ⟨2, ![1, 64]⟩
abbrev S50000x320 : Shape := ⟨2, ![50000, 320]⟩

abbrev nBuf : Space → Nat
  | .hbm => 86
  | .vmem => 0
  | .smem => 0
  | _ => 0

abbrev bufTy : (tb : Table) → Fin (tcTables nBuf tb) → BufTy
  | .hbm, ⟨0, _⟩ => ⟨S50000x127, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S320x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S50000x1, .f32⟩
  | .hbm, ⟨16, _⟩ => ⟨S50000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .i1⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S1600000x1, .i32⟩
  | .hbm, ⟨61, _⟩ => ⟨S50000x128, .f32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .i1⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .i1⟩
  | .hbm, ⟨73, _⟩ => ⟨S50000x128, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x320, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call3_cst : Ref sig .tc := ⟨.hbm, 78, rfl⟩
abbrev main_call3_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x127_S50000x128_d1 : Shape.Concatenates [S50000x1, S50000x127] S50000x128 1
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x128_S50000x128_S50000x64_S50000x320_d1 : Shape.Concatenates [S50000x128, S50000x128, S50000x64] S50000x320 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x320_S320x64_S50000x64_1_0_0_1_n_n_wf : DotDims.WF S50000x320 S320x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x320_S320x64_S50000x64_1_0_0_1_n_n : DotDims S50000x320 S320x64 S50000x64 where
  lhsContracting := [1]
  rhsContracting := [0]
  lhsNonContracting := [0]
  rhsNonContracting := [1]
  lhsBatch := []
  rhsBatch := []
  wf := dot_S50000x320_S320x64_S50000x64_1_0_0_1_n_n_wf

class Facts : Prop extends Facts₀ where

variable [Facts]
-- ==== Proof.Spec.lean ====
/-
  The value both programs compute after the shared aggregation steps, entry by entry, over the extended reals.

  A hidden layer: entry (r, q) of relu(x · W + b) is max (∑ₖ x(r, k) · W(k, q) + b(q)) 0.
  The output: the three feature blocks h1 | h2 | h3 (128 + 128 + 64 columns) side by side, times Wf, plus bf:
  entry (r, q) is ∑ₖ (h1 | h2 | h3)(r, k) · Wf(k, q) + bf(q), k running over the 320 joined columns.
-/
import Idealize.ShloMosaic.PureOps.Ideal
import Idealize.ShloMosaic.Lib.ValueIdx

noncomputable section

namespace Cert.Spec

open Idealize.ShloMosaic Idealize.ShloMosaic.ValueIdx

/-- An array of extended reals with `r` rows and `c` columns. -/
abbrev Mat (r c : Nat) : Type := FVec Ideal (⟨2, ![r, c]⟩ : Shape) .f32
/-- A vector of `c` extended reals. -/
abbrev Row (c : Nat) : Type := FVec Ideal (⟨1, ![c]⟩ : Shape) .f32

/-- The second feature block: relu(x · W + b) for the 128 × 128 weights. -/
def hidden (x : Mat 50000 128) (W : Mat 128 128) (b : Row 128) : Mat 50000 128 :=
  fun i => max ((∑ k : Fin 128, x (ix2 (i 0) k) * W (ix2 k (i 1))) + b (ix1 (i 1))) 0

/-- The third feature block: relu(a · W1 + b1) for the 128 × 64 weights. -/
def embed (a : Mat 50000 128) (W1 : Mat 128 64) (b1 : Row 64) : Mat 50000 64 :=
  fun i => max ((∑ k : Fin 128, a (ix2 (i 0) k) * W1 (ix2 k (i 1))) + b1 (ix1 (i 1))) 0

/-- Column `k` of the three blocks laid side by side: columns 0‥127 are h1's, 128‥255 h2's, 256‥319 h3's. -/
def joined (h1 h2 : Mat 50000 128) (h3 : Mat 50000 64) (r : Fin 50000) (k : Fin 320) : EReal :=
  if h : k.val < 128 then h1 (ix2 r ⟨k.val, h⟩)
  else if h' : k.val < 256 then h2 (ix2 r ⟨k.val - 128, by omega⟩)
  else h3 (ix2 r ⟨k.val - 256, by have := k.isLt; omega⟩)

/-- The result: (h1 | h2 | h3) · Wf + bf. -/
def project (h1 h2 : Mat 50000 128) (h3 : Mat 50000 64) (Wf : Mat 320 64) (bf : Row 64) : Mat 50000 64 :=
  fun i => (∑ k : Fin 320, joined h1 h2 h3 (i 0) k * Wf (ix2 k (i 1))) + bf (ix1 (i 1))

end Cert.Spec

end
-- ==== Proof.Block0.lean ====
/-
  The first kernel region's output array, whole. Grid point t writes rows 2000·t ‥ 2000·t + 1999 of the output; row r of
  that block is relu(x(r, ·) · W + b), with x the matching row of the input array's block t, W and b the whole weight
  and bias arrays (their windows do not move). The 25 blocks tile the 50000 rows, so the array after the region is
  the hidden-layer function of the arrays the region found.
-/
import proofs.«105910_j84731114815819_1_alg».proof.Proof.Gen.KernelIdeal.Frame
import proofs.«105910_j84731114815819_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The stored value at one entry -/

/-- The matrix product's left operand is read at the output's row -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contracted column; -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted row -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix product into a zero accumulator, read at entry (p, q): the plain sum over the contracted index. -/
theorem matmul_apply0 (y0 : FVec Ideal S2000x128 .bf16) (y1 : FVec Ideal S128x128 .bf16) (p : Fin 2000) (q : Fin 128) :
    matmul dot_S2000x128_S128x128_S2000x128_1_0_0_1_n_n none y0 y1 (constant S2000x128 .f32 0x00000000#32) (ix2 p q)
      = ∑ k : Fin 128, y0 (ix2 p k) * y1 (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- Entry (p, q) of what the body stores, from its loaded blocks x (2000 × 128), W (128 × 128), b (1 × 128):
    max (∑ₖ x(p, k) · W(k, q) + b(0, q)) 0. The casts to the narrower float format are the identity over the
    extended reals. -/
theorem pay_apply (x0 : Vec Ideal S2000x128 .f32) (x1 : Vec Ideal S128x128 .f32) (x2 : Vec Ideal S1x128 .f32)
    (p : Fin 2000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  simp only [shapeCast_self]
  rw [maximumf_apply, addf_apply, broadcast_apply,
    show (FloatOps.ofBits FTy.f32 0x00000000#32 : Ideal .f32) = 0 from Ideal.ofBits_zero_f32, matmul_apply0,
    broadcastTo_1b_ab_apply]
  rfl

/-- The same at any index of the block. -/
theorem pay_at (x0 : Vec Ideal S2000x128 .f32) (x1 : Vec Ideal S128x128 .f32) (x2 : Vec Ideal S1x128 .f32)
    (j : S2000x128.Idx) :
    k0_pay1 (F := Ideal) x0 x1 x2 j
      = max ((∑ k : Fin 128, x0 (ix2 (j 0) k) * x1 (ix2 k (j 1))) + x2 (ix2 (0 : Fin 1) (j 1))) 0 :=
  (congrArg (k0_pay1 (F := Ideal) x0 x1 x2) (eq_ix2 j)).trans (pay_apply x0 x1 x2 (j 0) (j 1))

/-! ## The windows' blocks in their arrays -/

theorem hz : (![0, 0] : Fin 2 → Nat) = fun _ => 0 := funext fun a => by fin_cases a <;> rfl

/-- The printed index maps over the grid: the input's and the output's row blocks are the point's own, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The hidden layer of the arrays the region is entered with. -/
abbrev G (c : Dev nD) : Cert.Spec.Mat 50000 128 :=
  Cert.Spec.hidden (V c main_v24) (V c main_arg3) (fun j => V c main_v25 (ix2 0 (j 0)))

/-- The hidden layer at entry (r, q). -/
theorem hidden_apply (x : Cert.Spec.Mat 50000 128) (W : Cert.Spec.Mat 128 128) (b : Cert.Spec.Row 128)
    (r : Fin 50000) (q : Fin 128) :
    Cert.Spec.hidden x W b (ix2 r q) = max ((∑ k : Fin 128, x (ix2 r k) * W (ix2 k q)) + b (ix1 q)) 0 := rfl

/-- Block t of the input array is its rows 2000·t ‥ 2000·t + 1999. -/
theorem xblk_apply (c : Dev nD) (t : Fin cfg0.N) (x : S2000x128.Idx) (k : S50000x128.Idx)
    (hk0 : (k 0).val = t.val * 2000 + (x 0).val) (hk1 : (k 1).val = (x 1).val) :
    (iblk0 (F := Ideal) V c 0 t : Vec Ideal S2000x128 .f32) x = (V c main_v24 : S50000x128.Idx → Elt Ideal .f32) k := by
  obtain ⟨e0, e1, -⟩ := idx_facts t
  unfold iblk0
  rw [View.read_apply]
  show V c main_v24 _ = V c main_v24 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The weights' block is the whole array, at every point. -/
theorem wblk_apply (c : Dev nD) (t : Fin cfg0.N) (x : S128x128.Idx) :
    (iblk0 (F := Ideal) V c 1 t : Vec Ideal S128x128 .f32) x = (V c main_arg3 : S128x128.Idx → Elt Ideal .f32) x := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The bias row's block is the whole array, at every point. -/
theorem bblk_apply (c : Dev nD) (t : Fin cfg0.N) (x : S1x128.Idx) :
    (iblk0 (F := Ideal) V c 2 t : Vec Ideal S1x128 .f32) x = (V c main_v25 : S1x128.Idx → Elt Ideal .f32) x := by
  obtain ⟨-, -, -, -, e0, e1, -⟩ := idx_facts t
  unfold iblk0
  rw [View.read_apply]
  show V c main_v25 _ = V c main_v25 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-! ## What a point writes back, and the whole array -/

/-- Point t writes back block t of the hidden layer of the arrays the region found. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S1x128) hz]
  funext j
  show k0_pay1 (F := Ideal) (iblk0 V c 0 t) (iblk0 V c 1 t) (iblk0 V c 2 t) j = _
  refine (pay_at _ _ _ j).trans ?_
  rw [View.read_apply]
  have hN : cfg0.N = 25 := N_0
  have hj0 : (j 0).val < 2000 := (j 0).isLt
  have hj1 : (j 1).val < 128 := (j 1).isLt
  have ht := t.isLt
  obtain ⟨-, -, -, -, -, -, e0, e1⟩ := idx_facts t
  -- where entry j of block t sits in the array: row 2000·t + j₀, column j₁
  have he : ((cfg0.win 3).blk t).view.emb j
      = (ix2 (⟨t.val * 2000 + (j 0).val, by omega⟩ : Fin 50000) (⟨(j 1).val, hj1⟩ : Fin 128) : S50000x128.Idx) :=
    funext fun a => Fin.ext (by
      match a with
      | ⟨0, _⟩ => show win0_3.index t 0 * 2000 + 1 * (j 0).val = t.val * 2000 + (j 0).val; rw [e0]; omega
      | ⟨1, _⟩ => show win0_3.index t 1 * 128 + 1 * (j 1).val = (j 1).val; rw [e1]; omega)
  show _ = G V c (((cfg0.win 3).blk t).view.emb j)
  rw [he]
  refine Eq.trans ?_ (hidden_apply _ _ _ _ _).symm
  refine congrArg (max · 0) (congrArg₂ (· + ·) (Finset.sum_congr rfl fun k _ => congrArg₂ (· * ·) ?_ ?_) ?_)
  · exact xblk_apply V c t _ _ rfl rfl
  · exact wblk_apply V c t _
  · exact bblk_apply V c t _

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v26).slice (win0_3.rect t)).set ↔ _
  rw [View.set_slice_whole, Rect.mem_set_unit]
  exact Iff.rfl

/-- Every index of the array lies in the block of the point its row falls under: the 25 row blocks tile the
    50000 rows. -/
theorem cover (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, e0, e1⟩ := idx_facts t
  refine ⟨t, flush0_3 t, ?_⟩
  rw [mem_blk]
  intro a
  match a with
  | ⟨0, _⟩ => show win0_3.index t 0 * 2000 ≤ (i 0).val ∧ (i 0).val < win0_3.index t 0 * 2000 + 2000; rw [e0, ht]; omega
  | ⟨1, _⟩ => show win0_3.index t 1 * 128 ≤ (i 1).val ∧ (i 1).val < win0_3.index t 1 * 128 + 128; rw [e1]; omega

/-- The array region 0 leaves in its output window: the hidden layer of the arrays it was entered with
    (the bias read off the 1 × 128 array's only row). -/
theorem final0 (c : Dev nD) :
    (dat0 (F := Ideal) V c).arrAt 3 cfg0.N
      = Cert.Spec.hidden (V c main_v24) (V c main_arg3) (fun j => V c main_v25 (ix2 0 (j 0))) :=
  (dat0 (F := Ideal) V c).arrAt_eq_of_cover 3 (G V c) (fun t _ => flushed_eq V c t) cover

end Cert.KernelIdeal.Region0

end
-- ==== Proof.Pay1.lean ====
/-
  The second kernel's stored value read at one entry. For the loaded blocks a (2000 × 128), W1 (128 × 64), b1 (1 × 64),
  h1, h2 (2000 × 128), Wf (320 × 64), bf (1 × 64), entry (p, q) of what the body stores is
      ∑ₖ (h1 | h2 | relu(a · W1 + b1))(p, k) · Wf(k, q) + bf(0, q),
  k running over the 320 joined columns: the casts to the narrower float format are the identity over the extended
  reals, each matrix product into a zero accumulator is the plain sum over the contracted index, and the
  concatenation along the columns picks its piece by the column's range.
-/
import proofs.«105910_j84731114815819_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx

/-- Column `k` of the block's three pieces side by side at row `p`: h1's columns, then h2's, then the embedding
    layer's relu(a · W1 + b1). -/
def joinedAt (x0 : Vec Ideal S2000x128 .f32) (x3 : Vec Ideal S128x64 .f32) (x6 : Vec Ideal S1x64 .f32)
    (x12 x14 : Vec Ideal S2000x128 .f32) (p : Fin 2000) (k : Fin 320) : EReal :=
  if h : k.val < 128 then x12 (ix2 p ⟨k.val, h⟩)
  else if h' : k.val < 256 then x14 (ix2 p ⟨k.val - 128, by omega⟩)
  else max ((∑ j : Fin 128, x0 (ix2 p j) * x3 (ix2 j (⟨k.val - 256, by have := k.isLt; omega⟩ : Fin 64)))
      + x6 (ix2 (0 : Fin 1) (⟨k.val - 256, by have := k.isLt; omega⟩ : Fin 64))) 0

/-! ## The two matrix products at an entry

Each contracts the left operand's columns against the right operand's rows; the result's row comes from the left
operand and its column from the right one. -/

theorem lhs_mm1_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_mm1_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_mm1_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_mm1_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The first product into the zero accumulator, at entry (p, q): the sum over the 128 contracted columns. -/
theorem mm1_apply (L : FVec Ideal S2000x128 .bf16) (R : FVec Ideal S128x64 .bf16) (p : Fin 2000) (q : Fin 64) :
    matmul (F := Ideal) dot_S2000x128_S128x64_S2000x64_1_0_0_1_n_n none L R (constant (F := Ideal) S2000x64 .f32 0x00000000#32) (ix2 p q)
      = ∑ j : Fin 128, L (ix2 p j) * R (ix2 j q) := by
  refine (Ideal.matmul_constant_zero_apply dot_S2000x128_S128x64_S2000x64_1_0_0_1_n_n none L R (ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

theorem lhs_mm2_0 (i : S2000x64.Idx) (q : dot_S2000x320_S320x64_S2000x64_1_0_0_1_n_n.contr.Idx) :
    (dot_S2000x320_S320x64_S2000x64_1_0_0_1_n_n.lhsIdx i q 0).val = (i 0).val := by
  unfold DotDims.lhsIdx
  rw [dif_neg (show ¬(0 : Fin S2000x320.rank) ∈ dot_S2000x320_S320x64_S2000x64_1_0_0_1_n_n.lhsBatch by decide), dif_pos (show (0 : Fin S2000x320.rank) ∈ dot_S2000x320_S320x64_S2000x64_1_0_0_1_n_n.lhsNonContracting by decide)]
  rfl
theorem lhs_mm2_1 (i : S2000x64.Idx) (q : dot_S2000x320_S320x64_S2000x64_1_0_0_1_n_n.contr.Idx) :
    (dot_S2000x320_S320x64_S2000x64_1_0_0_1_n_n.lhsIdx i q 1).val = (q ⟨0, by decide⟩).val :=
  dot_S2000x320_S320x64_S2000x64_1_0_0_1_n_n.lhsIdx_val_of_single rfl i q
theorem rhs_mm2_0 (i : S2000x64.Idx) (q : dot_S2000x320_S320x64_S2000x64_1_0_0_1_n_n.contr.Idx) :
    (dot_S2000x320_S320x64_S2000x64_1_0_0_1_n_n.rhsIdx i q 0).val = (q ⟨0, by decide⟩).val :=
  dot_S2000x320_S320x64_S2000x64_1_0_0_1_n_n.rhsIdx_val_of_single rfl i q
theorem rhs_mm2_1 (i : S2000x64.Idx) (q : dot_S2000x320_S320x64_S2000x64_1_0_0_1_n_n.contr.Idx) :
    (dot_S2000x320_S320x64_S2000x64_1_0_0_1_n_n.rhsIdx i q 1).val = (i 1).val := by
  unfold DotDims.rhsIdx
  rw [dif_neg (show ¬(1 : Fin S320x64.rank) ∈ dot_S2000x320_S320x64_S2000x64_1_0_0_1_n_n.rhsBatch by decide), dif_pos (show (1 : Fin S320x64.rank) ∈ dot_S2000x320_S320x64_S2000x64_1_0_0_1_n_n.rhsNonContracting by decide)]
  rfl

/-- The second product into the zero accumulator, at entry (p, q): the sum over the 320 contracted columns. -/
theorem mm2_apply (L : FVec Ideal S2000x320 .bf16) (R : FVec Ideal S320x64 .bf16) (p : Fin 2000) (q : Fin 64) :
    matmul (F := Ideal) dot_S2000x320_S320x64_S2000x64_1_0_0_1_n_n none L R (constant (F := Ideal) S2000x64 .f32 0x00000000#32) (ix2 p q)
      = ∑ j : Fin 320, L (ix2 p j) * R (ix2 j q) := by
  refine (Ideal.matmul_constant_zero_apply dot_S2000x320_S320x64_S2000x64_1_0_0_1_n_n none L R (ix2 p q)).trans ?_
  rw [← Equiv.sum_comp (ValueIdx.contrEquiv1 dot_S2000x320_S320x64_S2000x64_1_0_0_1_n_n 320 rfl rfl).symm]
  refine Finset.sum_congr rfl fun k _ => ?_
  have hk := ValueIdx.contrEquiv1_symm_val dot_S2000x320_S320x64_S2000x64_1_0_0_1_n_n 320 rfl rfl k
  have el : dot_S2000x320_S320x64_S2000x64_1_0_0_1_n_n.lhsIdx (ix2 p q) ((ValueIdx.contrEquiv1 dot_S2000x320_S320x64_S2000x64_1_0_0_1_n_n 320 rfl rfl).symm k) = ix2 p k := funext fun a => Fin.ext (by
    match a with
    | ⟨0, _⟩ => exact lhs_mm2_0 _ _
    | ⟨1, _⟩ => exact (lhs_mm2_1 _ _).trans hk)
  have er : dot_S2000x320_S320x64_S2000x64_1_0_0_1_n_n.rhsIdx (ix2 p q) ((ValueIdx.contrEquiv1 dot_S2000x320_S320x64_S2000x64_1_0_0_1_n_n 320 rfl rfl).symm k) = ix2 k q := funext fun a => Fin.ext (by
    match a with
    | ⟨0, _⟩ => exact (rhs_mm2_0 _ _).trans hk
    | ⟨1, _⟩ => exact rhs_mm2_1 _ _)
  rw [el, er]

/-! ## The three pieces side by side, read at a column -/

section Concat
variable (A B : FVec Ideal S2000x128 .f32) (C : FVec Ideal S2000x64 .f32) (p : Fin 2000) (k : Fin 320)

/-- A column below 128 lies in the first piece. -/
theorem concat3_lo (h : k.val < 128) :
    concatenate S2000x320 1 [⟨S2000x128, A⟩, ⟨S2000x128, B⟩, ⟨S2000x64, C⟩] concatenates_S2000x128_S2000x128_S2000x64_S2000x320_d1 (ix2 p k)
      = A (ix2 p ⟨k.val, h⟩) :=
  concatenate_apply_piece (1 : Fin S2000x320.rank) _ _ (ix2 p k) 0 (by show 0 < 3; decide) S2000x128 A rfl rfl 0 rfl (ix2 p ⟨k.val, h⟩)
    (fun b hb => match b, hb with
      | ⟨0, _⟩, _ => rfl
      | ⟨1, _⟩, hb => absurd rfl hb)
    (Nat.zero_add _)

/-- A column from 128 up to 256 lies in the second piece, at the column less 128. -/
theorem concat3_mid (h1 : ¬ k.val < 128) (h2 : k.val < 256) :
    concatenate S2000x320 1 [⟨S2000x128, A⟩, ⟨S2000x128, B⟩, ⟨S2000x64, C⟩] concatenates_S2000x128_S2000x128_S2000x64_S2000x320_d1 (ix2 p k)
      = B (ix2 p ⟨k.val - 128, by omega⟩) :=
  concatenate_apply_piece (1 : Fin S2000x320.rank) _ _ (ix2 p k) 1 (by show 1 < 3; decide) S2000x128 B rfl rfl 128 rfl (ix2 p ⟨k.val - 128, by omega⟩)
    (fun b hb => match b, hb with
      | ⟨0, _⟩, _ => rfl
      | ⟨1, _⟩, hb => absurd rfl hb)
    (by show 128 + (k.val - 128) = k.val; omega)

/-- A column from 256 on lies in the third piece, at the column less 256. -/
theorem concat3_hi (h2 : ¬ k.val < 256) :
    concatenate S2000x320 1 [⟨S2000x128, A⟩, ⟨S2000x128, B⟩, ⟨S2000x64, C⟩] concatenates_S2000x128_S2000x128_S2000x64_S2000x320_d1 (ix2 p k)
      = C (ix2 p ⟨k.val - 256, by have := k.isLt; omega⟩) :=
  concatenate_apply_piece (1 : Fin S2000x320.rank) _ _ (ix2 p k) 2 (by show 2 < 3; decide) S2000x64 C rfl rfl 256 rfl
    (ix2 p ⟨k.val - 256, by have := k.isLt; omega⟩)
    (fun b hb => match b, hb with
      | ⟨0, _⟩, _ => rfl
      | ⟨1, _⟩, hb => absurd rfl hb)
    (by show 256 + (k.val - 256) = k.val; omega)

end Concat

/-! ## The joined row by the column's range -/

section Joined
variable (x0 : Vec Ideal S2000x128 .f32) (x3 : Vec Ideal S128x64 .f32) (x6 : Vec Ideal S1x64 .f32)
  (x12 x14 : Vec Ideal S2000x128 .f32) (p : Fin 2000) (k : Fin 320)

theorem joinedAt_lo (h : k.val < 128) : joinedAt x0 x3 x6 x12 x14 p k = x12 (ix2 p ⟨k.val, h⟩) := by
  unfold joinedAt
  exact dif_pos h

theorem joinedAt_mid (h1 : ¬ k.val < 128) (h2 : k.val < 256) :
    joinedAt x0 x3 x6 x12 x14 p k = x14 (ix2 p ⟨k.val - 128, by omega⟩) := by
  unfold joinedAt
  rw [dif_neg h1, dif_pos h2]

theorem joinedAt_hi (h2 : ¬ k.val < 256) :
    joinedAt x0 x3 x6 x12 x14 p k
      = max ((∑ j : Fin 128, x0 (ix2 p j) * x3 (ix2 j (⟨k.val - 256, by have := k.isLt; omega⟩ : Fin 64)))
          + x6 (ix2 (0 : Fin 1) (⟨k.val - 256, by have := k.isLt; omega⟩ : Fin 64))) 0 := by
  unfold joinedAt
  rw [dif_neg (by omega), dif_neg h2]

end Joined

/-- The stored value at entry (p, q). -/
theorem pay1_apply (x0 : Vec Ideal S2000x128 .f32) (x3 : Vec Ideal S128x64 .f32) (x6 : Vec Ideal S1x64 .f32)
    (x12 x14 : Vec Ideal S2000x128 .f32) (x18 : Vec Ideal S320x64 .f32) (x21 : Vec Ideal S1x64 .f32)
    (p : Fin 2000) (q : Fin 64) :
    k1_pay1 (F := Ideal) x0 x3 x6 x12 x14 x18 x21 (ix2 p q)
      = (∑ k : Fin 320, joinedAt x0 x3 x6 x12 x14 p k * x18 (ix2 k q)) + x21 (ix2 (0 : Fin 1) q) := by
  unfold k1_pay1
  refine (addf_apply _ _ _).trans ?_
  refine congrArg₂ (· + ·) ?_ ?_
  · refine (mm2_apply _ _ p q).trans ?_
    refine Finset.sum_congr rfl fun k _ => ?_
    refine congrArg₂ (· * ·) ?_ rfl
    refine (truncf_apply (ψ := .bf16) _ bitsLt_bf16_f32 _).trans ?_
    by_cases h : k.val < 128
    · refine (concat3_lo _ _ _ p k h).trans ?_
      refine (congrFun (shapeCast_self x12 _) _).trans ?_
      exact (joinedAt_lo x0 x3 x6 x12 x14 p k h).symm
    · by_cases h2 : k.val < 256
      · refine (concat3_mid _ _ _ p k h h2).trans ?_
        refine (congrFun (shapeCast_self x14 _) _).trans ?_
        exact (joinedAt_mid x0 x3 x6 x12 x14 p k h h2).symm
      · refine (concat3_hi _ _ _ p k h2).trans ?_
        refine (maximumf_apply _ _ _).trans ?_
        refine (congrArg₂ max ?_ ?_).trans (joinedAt_hi x0 x3 x6 x12 x14 p k h2).symm
        · refine (addf_apply _ _ _).trans ?_
          refine congrArg₂ (· + ·) ?_ ?_
          · refine (mm1_apply _ _ p _).trans ?_
            refine Finset.sum_congr rfl fun j _ => ?_
            refine congrArg₂ (· * ·) ?_ rfl
            refine (truncf_apply (ψ := .bf16) _ bitsLt_bf16_f32 _).trans ?_
            exact congrFun (shapeCast_self x0 _) _
          · refine (broadcastTo_1b_ab_apply _ _ p _).trans ?_
            exact congrFun (shapeCast_self x6 _) _
        · exact Ideal.ofBits_zero_f32
  · refine (broadcastTo_1b_ab_apply _ _ p q).trans ?_
    exact congrFun (shapeCast_self x21 _) _

end Cert.KernelIdeal.Region1

end
-- ==== Proof.Block1.lean ====
/-
  The second kernel region's output array, whole. Grid point t writes rows 2000·t ‥ 2000·t + 1999 of the output; row r
  of that block is (h1(r, ·) | h2(r, ·) | relu(a(r, ·) · W1 + b1)) · Wf + bf, with a, h1, h2 the matching rows of the
  three row-blocked input arrays and W1, b1, Wf, bf the whole weight and bias arrays. The 25 blocks tile the 50000
  rows, so the array after the region is the projection of the arrays the region found.
-/
import proofs.«105910_j84731114815819_1_alg».proof.Proof.Gen.KernelIdeal.Frame
import proofs.«105910_j84731114815819_1_alg».proof.Proof.Spec
import proofs.«105910_j84731114815819_1_alg».proof.Proof.Pay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The index maps over the grid -/

/-- A pair of zero offsets is the zero offset. -/
theorem zero_offsets : (![0, 0] : Fin 2 → Nat) = fun _ => 0 := funext fun a => by fin_cases a <;> rfl

/-- The index maps, decided over the 25 grid points: the three row-blocked inputs and the output sit at block
    (t, 0); the four weight and bias arrays are fetched whole, block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ t.val < 25 :=
  (by decide +kernel : ∀ t : Fin grid1.N, _)

/-- Row p of grid point t's block is row 2000·t + p of the array. -/
def rowOf (t : Fin cfg1.N) (p : Fin 2000) : Fin 50000 :=
  ⟨t.val * 2000 + p.val, by have := (index_facts t).2.2.2.2.2.2.2.2.2.2.2.2.2.2.2.2; have := p.isLt; omega⟩

/-! ## Each input block, read where the output's rows say -/

/-- The aggregate's block at point t holds rows 2000·t ‥ of the aggregate array. -/
theorem agg_block (c : Dev nD) (t : Fin cfg1.N) (p : Fin 2000) (k : Fin 128) :
    iblk1 (F := Ideal) V c 0 t (ix2 p k) = V c main_v45 (ix2 (rowOf t p) k) := by
  obtain ⟨e0, e1, -⟩ := index_facts t
  show V c main_v45 (((cfg1.win 0).blk t).view.emb (ix2 p k)) = V c main_v45 (ix2 (rowOf t p) k)
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- The first feature block's block at point t holds the same rows of its array. -/
theorem h1_block (c : Dev nD) (t : Fin cfg1.N) (p : Fin 2000) (k : Fin 128) :
    iblk1 (F := Ideal) V c 1 t (ix2 p k) = V c main_v5 (ix2 (rowOf t p) k) := by
  obtain ⟨-, -, e0, e1, -⟩ := index_facts t
  show V c main_v5 (((cfg1.win 1).blk t).view.emb (ix2 p k)) = V c main_v5 (ix2 (rowOf t p) k)
  refine congrArg _ ?_
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- The second feature block's block at point t holds the same rows of its array. -/
theorem h2_block (c : Dev nD) (t : Fin cfg1.N) (p : Fin 2000) (k : Fin 128) :
    iblk1 (F := Ideal) V c 2 t (ix2 p k) = V c main_v26 (ix2 (rowOf t p) k) := by
  obtain ⟨-, -, -, -, e0, e1, -⟩ := index_facts t
  show V c main_v26 (((cfg1.win 2).blk t).view.emb (ix2 p k)) = V c main_v26 (ix2 (rowOf t p) k)
  refine congrArg _ ?_
  funext a; apply Fin.ext
  match a with
  | ⟨0, _⟩ => show win1_2.index t (0 : Fin 2) * 2000 + 1 * p.val = t.val * 2000 + p.val; omega
  | ⟨1, _⟩ => show win1_2.index t (1 : Fin 2) * 128 + 1 * k.val = k.val; omega

/-- The embedding layer's weights are fetched whole. -/
theorem w1_block (c : Dev nD) (t : Fin cfg1.N) (j : Fin 128) (k : Fin 64) :
    iblk1 (F := Ideal) V c 3 t (ix2 j k) = V c main_arg5 (ix2 j k) := by
  obtain ⟨-, -, -, -, -, -, e0, e1, -⟩ := index_facts t
  show V c main_arg5 (((cfg1.win 3).blk t).view.emb (ix2 j k)) = V c main_arg5 (ix2 j k)
  refine congrArg _ ?_
  funext a; apply Fin.ext
  match a with
  | ⟨0, _⟩ => show win1_3.index t (0 : Fin 2) * 128 + 1 * j.val = j.val; omega
  | ⟨1, _⟩ => show win1_3.index t (1 : Fin 2) * 64 + 1 * k.val = k.val; omega

/-- The embedding layer's bias row is fetched whole. -/
theorem b1_block (c : Dev nD) (t : Fin cfg1.N) (z : Fin 1) (k : Fin 64) :
    iblk1 (F := Ideal) V c 4 t (ix2 z k) = V c main_v46 (ix2 z k) := by
  obtain ⟨-, -, -, -, -, -, -, -, e0, e1, -⟩ := index_facts t
  show V c main_v46 (((cfg1.win 4).blk t).view.emb (ix2 z k)) = V c main_v46 (ix2 z k)
  refine congrArg _ ?_
  funext a; apply Fin.ext
  match a with
  | ⟨0, _⟩ => show win1_4.index t (0 : Fin 2) * 1 + 1 * z.val = z.val; omega
  | ⟨1, _⟩ => show win1_4.index t (1 : Fin 2) * 64 + 1 * k.val = k.val; omega

/-- The projection's weights are fetched whole. -/
theorem wf_block (c : Dev nD) (t : Fin cfg1.N) (k : Fin 320) (q : Fin 64) :
    iblk1 (F := Ideal) V c 5 t (ix2 k q) = V c main_arg7 (ix2 k q) := by
  obtain ⟨-, -, -, -, -, -, -, -, -, -, e0, e1, -⟩ := index_facts t
  show V c main_arg7 (((cfg1.win 5).blk t).view.emb (ix2 k q)) = V c main_arg7 (ix2 k q)
  refine congrArg _ ?_
  funext a; apply Fin.ext
  match a with
  | ⟨0, _⟩ => show win1_5.index t (0 : Fin 2) * 320 + 1 * k.val = k.val; omega
  | ⟨1, _⟩ => show win1_5.index t (1 : Fin 2) * 64 + 1 * q.val = q.val; omega

/-- The projection's bias row is fetched whole. -/
theorem bf_block (c : Dev nD) (t : Fin cfg1.N) (z : Fin 1) (q : Fin 64) :
    iblk1 (F := Ideal) V c 6 t (ix2 z q) = V c main_v47 (ix2 z q) := by
  obtain ⟨-, -, -, -, -, -, -, -, -, -, -, -, e0, e1, -⟩ := index_facts t
  show V c main_v47 (((cfg1.win 6).blk t).view.emb (ix2 z q)) = V c main_v47 (ix2 z q)
  refine congrArg _ ?_
  funext a; apply Fin.ext
  match a with
  | ⟨0, _⟩ => show win1_6.index t (0 : Fin 2) * 1 + 1 * z.val = z.val; omega
  | ⟨1, _⟩ => show win1_6.index t (1 : Fin 2) * 64 + 1 * q.val = q.val; omega

/-- Entry (p, q) of the output's block at point t is entry (2000·t + p, q) of the output array. -/
theorem out_entry (t : Fin cfg1.N) (p : Fin 2000) (q : Fin 64) :
    ((cfg1.win 7).blk t).view.emb (ix2 p q) = ix2 (rowOf t p) q := by
  obtain ⟨-, -, -, -, -, -, -, -, -, -, -, -, -, -, e0, e1, -⟩ := index_facts t
  funext a; apply Fin.ext
  match a with
  | ⟨0, _⟩ => show win1_7.index t (0 : Fin 2) * 2000 + 1 * p.val = t.val * 2000 + p.val; omega
  | ⟨1, _⟩ => show win1_7.index t (1 : Fin 2) * 64 + 1 * q.val = q.val; omega

/-! ## One joined column, block against array -/

/-- The embedding layer at one entry, block against array: when row p of the aggregate's block is row r of the
    aggregate array and the weights and the bias row are the arrays' own, relu(a · W1 + b1) of the blocks at (p, q)
    is the embedding layer of the arrays at (r, q), term by term of the sum. -/
theorem embed_entry (x0 : Vec Ideal S2000x128 .f32) (x3 : Vec Ideal S128x64 .f32) (x6 : Vec Ideal S1x64 .f32)
    (a : Cert.Spec.Mat 50000 128) (W1 : Cert.Spec.Mat 128 64) (b1 : Vec Ideal S1x64 .f32)
    (p : Fin 2000) (r : Fin 50000) (q : Fin 64)
    (h0 : ∀ j : Fin 128, x0 (ix2 p j) = a (ix2 r j)) (h3 : ∀ j : Fin 128, x3 (ix2 j q) = W1 (ix2 j q))
    (h6 : x6 (ix2 (0 : Fin 1) q) = b1 (ix2 (0 : Fin 1) q)) :
    max ((∑ j : Fin 128, x0 (ix2 p j) * x3 (ix2 j q)) + x6 (ix2 (0 : Fin 1) q)) 0
      = Cert.Spec.embed a W1 (fun j => b1 (ix2 0 (j 0))) (ix2 r q) := by
  show _ = max ((∑ k : Fin 128, a (ix2 r k) * W1 (ix2 k q)) + b1 (ix2 (0 : Fin 1) q)) 0
  rw [h6]
  refine congrArg (fun x => max x 0) (congrArg₂ (· + ·) (Finset.sum_congr rfl fun j _ => ?_) rfl)
  rw [h0 j, h3 j]

/-- Column k of the block's three pieces at row p is column k of the arrays' three pieces at row 2000·t + p: the two
    feature blocks entry for entry, the embedding layer by the lemma above. -/
theorem joined_block (c : Dev nD) (t : Fin cfg1.N) (p : Fin 2000) (k : Fin 320) :
    joinedAt (iblk1 (F := Ideal) V c 0 t) (iblk1 (F := Ideal) V c 3 t) (iblk1 (F := Ideal) V c 4 t)
        (iblk1 (F := Ideal) V c 1 t) (iblk1 (F := Ideal) V c 2 t) p k
      = Cert.Spec.joined (V c main_v5) (V c main_v26)
          (Cert.Spec.embed (V c main_v45) (V c main_arg5) (fun j => V c main_v46 (ix2 0 (j 0)))) (rowOf t p) k := by
  unfold joinedAt Cert.Spec.joined
  by_cases h : k.val < 128
  · rw [dif_pos h, dif_pos h]
    exact h1_block V c t p _
  · rw [dif_neg h, dif_neg h]
    by_cases h' : k.val < 256
    · rw [dif_pos h', dif_pos h']
      exact h2_block V c t p _
    · rw [dif_neg h', dif_neg h']
      exact embed_entry _ _ _ _ _ _ p _ _ (agg_block V c t p) (fun j => w1_block V c t j _) (b1_block V c t 0 _)

/-! ## What a grid point writes back -/

/-- Grid point t writes back block t of the projection of the arrays the region found. -/
theorem flushed_eq (c : Dev nD) (t : Fin cfg1.N) :
    (dat1 (F := Ideal) V c).flushed 7 t = ((cfg1.win 7).blk t).view.read (Elt Ideal)
      (Cert.Spec.project (V c main_v5) (V c main_v26)
        (Cert.Spec.embed (V c main_v45) (V c main_arg5) (fun j => V c main_v46 (ix2 0 (j 0))))
        (V c main_arg7) (fun j => V c main_v47 (ix2 0 (j 0)))) := by
  show (cfg1.win 7).cut (grid1.coords t) ((dat1 (F := Ideal) V c).after 7 t) = _
  rw [after1_7]
  unfold out1_7
  rw [View.canon_unit_zero zero_offsets]
  simp only [View.ld_unit_zero (S := S2000x128) zero_offsets, View.ld_unit_zero (S := S128x64) zero_offsets,
    View.ld_unit_zero (S := S1x64) zero_offsets, View.ld_unit_zero (S := S320x64) zero_offsets]
  funext j
  obtain ⟨p, q, rfl⟩ : ∃ (p : Fin 2000) (q : Fin 64), j = ix2 p q := ⟨j 0, j 1, eq_ix2 j⟩
  refine (pay1_apply _ _ _ _ _ _ _ p q).trans ?_
  rw [View.read_apply, out_entry]
  show _ = (∑ k : Fin 320, Cert.Spec.joined (V c main_v5) (V c main_v26)
      (Cert.Spec.embed (V c main_v45) (V c main_arg5) (fun j => V c main_v46 (ix2 0 (j 0)))) (rowOf t p) k
        * V c main_arg7 (ix2 k q)) + V c main_v47 (ix2 0 q)
  refine congrArg₂ (· + ·) (Finset.sum_congr rfl fun k _ => ?_) (bf_block V c t 0 q)
  exact congrArg₂ (· * ·) (joined_block V c t p k) (wf_block V c t k q)

/-! ## The blocks tile the array -/

/-- An index of the output array is in point t's block iff each coordinate is in the block's range on its axis. -/
theorem mem_block (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v48).slice (win1_7.rect t)).set ↔ _
  rw [View.set_slice_whole, Rect.mem_set_unit]
  exact Iff.rfl

/-- Row r of the output lies in the block of grid point r / 2000. -/
theorem covered (i : S50000x64.Idx) :
    ∃ t : Fin cfg1.N, (cfg1.win 7).flush t = true ∧ i ∈ ((cfg1.win 7).blk t).view.set := by
  have hi0 : (i 0).val < 50000 := idx2_lt0 i
  have hi1 : (i 1).val < 64 := idx2_lt1 i
  have ht : (i 0).val / 2000 < cfg1.N := by show _ < 25; omega
  obtain ⟨-, -, -, -, -, -, -, -, -, -, -, -, -, -, e0, e1, -⟩ := index_facts ⟨(i 0).val / 2000, ht⟩
  refine ⟨⟨(i 0).val / 2000, ht⟩, flush1_7 _, ?_⟩
  rw [mem_block]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 64 ≤ (i 1).val
      ∧ (i 1).val < win1_7.index ⟨(i 0).val / 2000, ht⟩ (1 : Fin 2) * 64 + 64
    omega

/-- The array region 1 leaves in its output window: the projection of the three feature blocks, the third computed
    from the aggregated array (each bias read off its 1 × 64 array's only row). -/
theorem final1 (c : Dev nD) :
    (dat1 (F := Ideal) V c).arrAt 7 cfg1.N
      = Cert.Spec.project (V c main_v5) (V c main_v26)
          (Cert.Spec.embed (V c main_v45) (V c main_arg5) (fun j => V c main_v46 (ix2 0 (j 0))))
          (V c main_arg7) (fun j => V c main_v47 (ix2 0 (j 0))) := by
  exact (dat1 (F := Ideal) V c).arrAt_eq_of_cover 7 _ (fun t _ => flushed_eq V c t) covered

end Cert.KernelIdeal.Region1

end
-- ==== Proof.RefStages.lean ====
/-
  The reference's two dense stages read entry by entry: its hidden layer relu(agg · W0 + b0) and its result
  (h1 | h2 | h3) · Wf + bf are the same sums over the contracted column index as the kernel's blocks compute.
-/
import proofs.«105910_j84731114815819_1_alg».proof.Proof.RefReadP
import proofs.«105910_j84731114815819_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx

variable (x0 : (⟨S50000x127, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (x7 : (⟨S320x64, .f32⟩ : BufTy).Contents (Elt Ideal)) (x8 : (⟨S64, .f32⟩ : BufTy).Contents (Elt Ideal))

/-- The left operand's index in the hidden layer's product: row of the entry, contracted column. -/
theorem lidx25 (i : S50000x128.Idx) (k : Fin 128) : lidx_main_v25 i k = ix2 (i 0) k :=
  funext fun a => Fin.ext (by match a with | ⟨0, _⟩ => rfl | ⟨1, _⟩ => rfl)
/-- The right operand's index in the hidden layer's product: contracted row, column of the entry. -/
theorem ridx25 (i : S50000x128.Idx) (k : Fin 128) : ridx_main_v25 i k = ix2 k (i 1) :=
  funext fun a => Fin.ext (by match a with | ⟨0, _⟩ => rfl | ⟨1, _⟩ => rfl)
/-- The hidden layer's bias, broadcast over the rows, is read at the entry's column. -/
theorem bidx27 (i : S50000x128.Idx) : idx_main_v26 (idx_main_v27 i) = ix1 (i 1) :=
  funext fun a => Fin.ext (by match a with | ⟨0, _⟩ => rfl)
/-- The left operand's index in the embedding layer's product: row of the entry, contracted column. -/
theorem lidx49 (i : S50000x64.Idx) (k : Fin 128) : lidx_main_v49 i k = ix2 (i 0) k :=
  funext fun a => Fin.ext (by match a with | ⟨0, _⟩ => rfl | ⟨1, _⟩ => rfl)
/-- The right operand's index in the embedding layer's product: contracted row, column of the entry. -/
theorem ridx49 (i : S50000x64.Idx) (k : Fin 128) : ridx_main_v49 i k = ix2 k (i 1) :=
  funext fun a => Fin.ext (by match a with | ⟨0, _⟩ => rfl | ⟨1, _⟩ => rfl)
/-- The embedding layer's bias, broadcast over the rows, is read at the entry's column. -/
theorem bidx51 (i : S50000x64.Idx) : idx_main_v50 (idx_main_v51 i) = ix1 (i 1) :=
  funext fun a => Fin.ext (by match a with | ⟨0, _⟩ => rfl)
/-- The left operand's index in the projection's product: row of the entry, contracted joined column. -/
theorem lidx55 (i : S50000x64.Idx) (k : Fin 320) : lidx_main_v55 i k = ix2 (i 0) k :=
  funext fun a => Fin.ext (by match a with | ⟨0, _⟩ => rfl | ⟨1, _⟩ => rfl)
/-- The right operand's index in the projection's product: contracted row, column of the entry. -/
theorem ridx55 (i : S50000x64.Idx) (k : Fin 320) : ridx_main_v55 i k = ix2 k (i 1) :=
  funext fun a => Fin.ext (by match a with | ⟨0, _⟩ => rfl | ⟨1, _⟩ => rfl)
/-- The projection's bias, broadcast over the rows, is read at the entry's column. -/
theorem bidx57 (i : S50000x64.Idx) : idx_main_v56 (idx_main_v57 i) = ix1 (i 1) :=
  funext fun a => Fin.ext (by match a with | ⟨0, _⟩ => rfl)

/-- The reference's second feature block is the hidden layer of its first aggregate. -/
theorem h2_eq : val_main_v29 (F := Ideal) x0 x1 x2 x3 x4 = Cert.Spec.hidden (val_main_v24 (F := Ideal) x0 x1 x2) x3 x4 := by
  funext i
  rw [val_main_v29_apply, val_main_v28_apply, val_main_v25_apply, val_main_v27_apply, val_main_v26_apply,
    val_main_call1_v0_apply, val_main_call1_cst_apply, bidx27]
  simp only [lidx25, ridx25]
  -- the all-zero word is the extended real 0; the rest is the definition of the layer
  refine (congrArg (fun z => max ((∑ k : Fin 128, val_main_v24 (F := Ideal) x0 x1 x2 (ix2 (i 0) k) * x3 (ix2 k (i 1))) + x4 (ix1 (i 1))) z) Ideal.ofBits_zero_f32).trans ?_
  rfl

/-- The reference's third feature block is the embedding layer of its second aggregate. -/
theorem h3_eq : val_main_v53 (F := Ideal) x0 x1 x2 x3 x4 x5 x6
    = Cert.Spec.embed (val_main_v48 (F := Ideal) x0 x1 x2 x3 x4) x5 x6 := by
  funext i
  rw [val_main_v53_apply, val_main_v52_apply, val_main_v49_apply, val_main_v51_apply, val_main_v50_apply,
    val_main_call3_v0_apply, val_main_call3_cst_apply, bidx51]
  simp only [lidx49, ridx49]
  refine (congrArg (fun z => max ((∑ k : Fin 128, val_main_v48 (F := Ideal) x0 x1 x2 x3 x4 (ix2 (i 0) k) * x5 (ix2 k (i 1))) + x6 (ix1 (i 1))) z) Ideal.ofBits_zero_f32).trans ?_
  rfl

/-- The reference's joined array at row `r`, column `k`: the first block for k < 128, the second at k - 128 for
    128 ≤ k < 256, the third at k - 256 for 256 ≤ k (the blocks' widths before each are 0, 128 and 128 + 128). -/
theorem v54_at (r : Fin 50000) (k : Fin 320) :
    val_main_v54 (F := Ideal) x0 x1 x2 x3 x4 x5 x6 (ix2 r k)
      = Cert.Spec.joined (val_main_v5 (F := Ideal) x0 x2) (val_main_v29 (F := Ideal) x0 x1 x2 x3 x4)
          (Cert.Spec.embed (val_main_v48 (F := Ideal) x0 x1 x2 x3 x4) x5 x6) r k := by
  unfold Cert.Spec.joined val_main_v54
  split
  · next h =>
    refine concatenate_apply_piece (t := S50000x320) 1
      [⟨S50000x128, val_main_v5 (F := Ideal) x0 x2⟩, ⟨S50000x128, val_main_v29 (F := Ideal) x0 x1 x2 x3 x4⟩,
        ⟨S50000x64, val_main_v53 (F := Ideal) x0 x1 x2 x3 x4 x5 x6⟩]
      concatenates_S50000x128_S50000x128_S50000x64_S50000x320_d1 (ix2 r k)
      0 (show 0 < 3 by decide) S50000x128 (val_main_v5 (F := Ideal) x0 x2) rfl rfl 0 rfl
      (ix2 r ⟨k.val, h⟩) ?_ ?_
    · intro b hb
      match b with
      | ⟨0, _⟩ => rfl
      | ⟨1, _⟩ => exact absurd rfl hb
    · exact Nat.zero_add _
  · next h =>
    split
    · next h' =>
      refine concatenate_apply_piece (t := S50000x320) 1
        [⟨S50000x128, val_main_v5 (F := Ideal) x0 x2⟩, ⟨S50000x128, val_main_v29 (F := Ideal) x0 x1 x2 x3 x4⟩,
          ⟨S50000x64, val_main_v53 (F := Ideal) x0 x1 x2 x3 x4 x5 x6⟩]
        concatenates_S50000x128_S50000x128_S50000x64_S50000x320_d1 (ix2 r k)
        1 (show 1 < 3 by decide) S50000x128 (val_main_v29 (F := Ideal) x0 x1 x2 x3 x4) rfl rfl 128 rfl
        (ix2 r ⟨k.val - 128, by omega⟩) ?_ ?_
      · intro b hb
        match b with
        | ⟨0, _⟩ => rfl
        | ⟨1, _⟩ => exact absurd rfl hb
      · show 128 + (k.val - 128) = k.val
        omega
    · next h' =>
      rw [← h3_eq]
      refine concatenate_apply_piece (t := S50000x320) 1
        [⟨S50000x128, val_main_v5 (F := Ideal) x0 x2⟩, ⟨S50000x128, val_main_v29 (F := Ideal) x0 x1 x2 x3 x4⟩,
          ⟨S50000x64, val_main_v53 (F := Ideal) x0 x1 x2 x3 x4 x5 x6⟩]
        concatenates_S50000x128_S50000x128_S50000x64_S50000x320_d1 (ix2 r k)
        2 (show 2 < 3 by decide) S50000x64 (val_main_v53 (F := Ideal) x0 x1 x2 x3 x4 x5 x6) rfl rfl 256 rfl
        (ix2 r ⟨k.val - 256, by have := k.isLt; omega⟩) ?_ ?_
      · intro b hb
        match b with
        | ⟨0, _⟩ => rfl
        | ⟨1, _⟩ => exact absurd rfl hb
      · show 256 + (k.val - 256) = k.val
        omega

/-- The reference's result is the projection of its three feature blocks, the third the embedding layer of its
    second aggregate. -/
theorem out_eq : val_main_v58 (F := Ideal) x0 x1 x2 x3 x4 x5 x6 x7 x8
    = Cert.Spec.project (val_main_v5 (F := Ideal) x0 x2) (val_main_v29 (F := Ideal) x0 x1 x2 x3 x4)
        (Cert.Spec.embed (val_main_v48 (F := Ideal) x0 x1 x2 x3 x4) x5 x6) x7 x8 := by
  funext i
  rw [val_main_v58_apply, val_main_v55_apply, val_main_v57_apply, val_main_v56_apply, bidx57]
  simp only [lidx55, ridx55]
  unfold Cert.Spec.project
  -- term by term over the 320 joined columns
  refine congrArg (fun z : EReal => z + x8 (ix1 (i 1))) (Finset.sum_congr rfl fun k _ => ?_)
  exact congrArg (fun z : EReal => z * x7 (ix2 k (i 1))) (v54_at x0 x1 x2 x3 x4 x5 x6 (i 0) k)

end Cert.ReferenceIdeal.Stages

end
-- ==== Proof.HostA1.lean ====
/-
  What the kernel's first region finds in its row-blocked input: the host operations before it compute the mean of the
  in-neighbours' first feature block (the degree-and-features concatenation gathered along the edges' sources, summed
  into the edges' destinations, divided by the clamped in-degree, with a node of in-degree zero keeping its own
  row) — term for term the reference's first aggregate of the same arguments.
-/
import proofs.«105910_j84731114815819_1_alg».proof.Proof.Gen.KernelIdeal.Frame
import proofs.«105910_j84731114815819_1_alg».proof.Proof.RefReadP
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

set_option maxHeartbeats 2000000 in
/-- Region 0's row-blocked input is the reference's first aggregate of the launch arguments. -/
theorem W3_v24 (c : Dev nD) : W3 m ρ c (Proc.devRef .tc main_v24)
    = Cert.ReferenceIdeal.ReadP.val_main_v24 (F := F) (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v24) = _
  after_results
  simp only [TRef.ofBuf, TRef.toBuf, cast_eq]
  rfl

end Cert.KernelIdeal.Host

end
-- ==== Proof.HostA2.lean ====
/-
  Three more buffers as region 0 is entered: the in-degree vector (ones summed into the edges' destinations), the first
  feature block (the in-degree column beside the input features) — each the reference's stage of the same arguments —
  and the first bias as a 1 × 128 array, whose only row is the bias vector.
-/
import proofs.«105910_j84731114815819_1_alg».proof.Proof.Gen.KernelIdeal.Frame
import proofs.«105910_j84731114815819_1_alg».proof.Proof.RefReadP
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

set_option maxHeartbeats 2000000 in
/-- The in-degree vector. -/
theorem W3_v3 (c : Dev nD) : W3 m ρ c (Proc.devRef .tc main_v3) = Cert.ReferenceIdeal.ReadP.val_main_v3 (F := F) (m ((c : Thread nD τ).loc main_arg2)) := by
  show StableHlo.after hostOps0_2 (StableHlo.after hostOps0_1 (StableHlo.after hostOps0 (W0 m ρ c))) (Proc.devRef .tc main_v3) = _
  after_results
  rfl

set_option maxHeartbeats 2000000 in
/-- The first feature block: the in-degree column beside the features. -/
theorem W3_v5 (c : Dev nD) : W3 m ρ c (Proc.devRef .tc main_v5) = Cert.ReferenceIdeal.ReadP.val_main_v5 (F := F) (m ((c : Thread nD τ).loc main_arg0)) (m ((c : Thread nD τ).loc main_arg2)) := by
  show StableHlo.after hostOps0_2 (StableHlo.after hostOps0_1 (StableHlo.after hostOps0 (W0 m ρ c))) (Proc.devRef .tc main_v5) = _
  after_results
  rfl

set_option maxHeartbeats 2000000 in
/-- The first bias reshaped to one row: that row is the bias vector. -/
theorem W3_row25 (c : Dev nD) :
    (fun j : (⟨1, ![128]⟩ : Shape).Idx => W3 m ρ c (Proc.devRef .tc main_v25) (ix2 (0 : Fin 1) (j 0))) = (m ((c : Thread nD τ).loc main_arg4)) := by
  have e : W3 m ρ c (Proc.devRef .tc main_v25)
      = fun i => shapeCast S1x128 (m ((c : Thread nD τ).loc main_arg4)) shapeCasts_S128_S1x128 i := by
    show StableHlo.after hostOps0_2 (StableHlo.after hostOps0_1 (StableHlo.after hostOps0 (W0 m ρ c))) (Proc.devRef .tc main_v25) = _
    after_results
    rfl
  rw [e]
  funext j
  rw [ValueIdx.eq_ix1 j]
  exact shapeCast_a_1a_apply _ _ 0 (j 0)

end Cert.KernelIdeal.Host

end
-- ==== Proof.HostA3.lean ====
/-
  The launch arguments the kernel regions read directly are written by no host operation before region 0: as the
  region is entered each still holds its launch contents.
-/
import proofs.«105910_j84731114815819_1_alg».proof.Proof.Gen.KernelIdeal.Frame
import proofs.«105910_j84731114815819_1_alg».proof.Proof.RefReadP
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

/-- A buffer no operation of a host stretch writes holds after the stretch what it held before. -/
local macro "untouched" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

set_option hygiene false in
/-- Through the three host stretches before region 0, one stretch at a time. -/
local macro "arg_untouched" r:ident : tactic =>
  `(tactic| (
    refine Eq.trans (b := W2 m ρ c (Proc.devRef .tc $r)) (by untouched hostOps0_2) ?_
    refine Eq.trans (b := W1 m ρ c (Proc.devRef .tc $r)) (by untouched hostOps0_1) ?_
    refine Eq.trans (b := W0 m ρ c (Proc.devRef .tc $r)) (by untouched hostOps0) ?_
    rfl))

theorem W3_arg1 (c : Dev nD) : W3 m ρ c (Proc.devRef .tc main_arg1) = (m ((c : Thread nD τ).loc main_arg1)) := by
  arg_untouched main_arg1

theorem W3_arg2 (c : Dev nD) : W3 m ρ c (Proc.devRef .tc main_arg2) = (m ((c : Thread nD τ).loc main_arg2)) := by
  arg_untouched main_arg2

theorem W3_arg3 (c : Dev nD) : W3 m ρ c (Proc.devRef .tc main_arg3) = (m ((c : Thread nD τ).loc main_arg3)) := by
  arg_untouched main_arg3

theorem W3_arg5 (c : Dev nD) : W3 m ρ c (Proc.devRef .tc main_arg5) = (m ((c : Thread nD τ).loc main_arg5)) := by
  arg_untouched main_arg5

theorem W3_arg6 (c : Dev nD) : W3 m ρ c (Proc.devRef .tc main_arg6) = (m ((c : Thread nD τ).loc main_arg6)) := by
  arg_untouched main_arg6

theorem W3_arg7 (c : Dev nD) : W3 m ρ c (Proc.devRef .tc main_arg7) = (m ((c : Thread nD τ).loc main_arg7)) := by
  arg_untouched main_arg7

theorem W3_arg8 (c : Dev nD) : W3 m ρ c (Proc.devRef .tc main_arg8) = (m ((c : Thread nD τ).loc main_arg8)) := by
  arg_untouched main_arg8

end Cert.KernelIdeal.Host

end
-- ==== Proof.HostB1.lean ====
/-
  What the kernel's second region finds in its first row-blocked input: the host operations between the regions compute
  the mean of the in-neighbours' SECOND feature block (region 0's output gathered along the edges' sources, summed into
  the destinations, divided by the clamped in-degree, a node of in-degree zero keeping its own row). Given that
  region 0's output is the reference's second feature block, this is term for term the reference's second aggregate.
-/
import proofs.«105910_j84731114815819_1_alg».proof.Proof.Gen.KernelIdeal.Frame
import proofs.«105910_j84731114815819_1_alg».proof.Proof.RefReadP
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

set_option maxHeartbeats 4000000 in
/-- Region 1's aggregated input is the reference's second aggregate, given what region 0 left and the buffers the
    stretch reads besides it. -/
theorem W7_v45 (c : Dev nD)
    (h3 : W4 m ρ c (Proc.devRef .tc main_v3) = Cert.ReferenceIdeal.ReadP.val_main_v3 (F := F) (m ((c : Thread nD τ).loc main_arg2)))
    (h26 : W4 m ρ c (Proc.devRef .tc main_v26) = Cert.ReferenceIdeal.ReadP.val_main_v29 (F := F) (m ((c : Thread nD τ).loc main_arg0)) (m ((c : Thread nD τ).loc main_arg1)) (m ((c : Thread nD τ).loc main_arg2)) (m ((c : Thread nD τ).loc main_arg3)) (m ((c : Thread nD τ).loc main_arg4)))
    (h1 : W4 m ρ c (Proc.devRef .tc main_arg1) = (m ((c : Thread nD τ).loc main_arg1)))
    (h2 : W4 m ρ c (Proc.devRef .tc main_arg2) = (m ((c : Thread nD τ).loc main_arg2))) :
    W7 m ρ c (Proc.devRef .tc main_v45)
      = Cert.ReferenceIdeal.ReadP.val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_2 (StableHlo.after hostOps1_1 (StableHlo.after hostOps1 (W4 m ρ c))) (Proc.devRef .tc main_v45) = _
  after_results
  rw [h3, h26, h1, h2]
  simp only [TRef.ofBuf, TRef.toBuf, cast_eq]
  rfl

end Cert.KernelIdeal.Host

end
-- ==== Proof.HostB2.lean ====
/-
  The other buffers region 1 reads, as it is entered: the first feature block, region 0's output and the two weight
  arrays are written by no host operation between the regions, and each bias reshaped to one row has the bias vector
  as that row.
-/
import proofs.«105910_j84731114815819_1_alg».proof.Proof.Gen.KernelIdeal.Frame
import proofs.«105910_j84731114815819_1_alg».proof.Proof.RefReadP
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx Idealize.SL.Sem

variable {F : FTy → Type} [FloatOps F]
variable (m : (ℓ : Loc nD τ sig) → Buf (Elt F) ℓ) (ρ : Dev nD → PrngReg)

/-- A buffer no operation of a host stretch writes holds after the stretch what it held before. -/
local macro "untouched" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W7_v5 (c : Dev nD) : W7 m ρ c (Proc.devRef .tc main_v5) = W4 m ρ c (Proc.devRef .tc main_v5) := by
  refine Eq.trans (b := W6 m ρ c (Proc.devRef .tc main_v5)) (by untouched hostOps1_2) ?_
  refine Eq.trans (b := W5 m ρ c (Proc.devRef .tc main_v5)) (by untouched hostOps1_1) ?_
  exact (by untouched hostOps1 : W5 m ρ c (Proc.devRef .tc main_v5) = W4 m ρ c (Proc.devRef .tc main_v5))

theorem W7_v26 (c : Dev nD) : W7 m ρ c (Proc.devRef .tc main_v26) = W4 m ρ c (Proc.devRef .tc main_v26) := by
  refine Eq.trans (b := W6 m ρ c (Proc.devRef .tc main_v26)) (by untouched hostOps1_2) ?_
  refine Eq.trans (b := W5 m ρ c (Proc.devRef .tc main_v26)) (by untouched hostOps1_1) ?_
  exact (by untouched hostOps1 : W5 m ρ c (Proc.devRef .tc main_v26) = W4 m ρ c (Proc.devRef .tc main_v26))

theorem W7_arg5 (c : Dev nD) : W7 m ρ c (Proc.devRef .tc main_arg5) = W4 m ρ c (Proc.devRef .tc main_arg5) := by
  refine Eq.trans (b := W6 m ρ c (Proc.devRef .tc main_arg5)) (by untouched hostOps1_2) ?_
  refine Eq.trans (b := W5 m ρ c (Proc.devRef .tc main_arg5)) (by untouched hostOps1_1) ?_
  exact (by untouched hostOps1 : W5 m ρ c (Proc.devRef .tc main_arg5) = W4 m ρ c (Proc.devRef .tc main_arg5))

theorem W7_arg7 (c : Dev nD) : W7 m ρ c (Proc.devRef .tc main_arg7) = W4 m ρ c (Proc.devRef .tc main_arg7) := by
  refine Eq.trans (b := W6 m ρ c (Proc.devRef .tc main_arg7)) (by untouched hostOps1_2) ?_
  refine Eq.trans (b := W5 m ρ c (Proc.devRef .tc main_arg7)) (by untouched hostOps1_1) ?_
  exact (by untouched hostOps1 : W5 m ρ c (Proc.devRef .tc main_arg7) = W4 m ρ c (Proc.devRef .tc main_arg7))

set_option maxHeartbeats 2000000 in
/-- A bias reshaped to one row: that row is the bias vector as region 0 left it. -/
theorem W7_row46 (c : Dev nD) :
    (fun j : (⟨1, ![64]⟩ : Shape).Idx => W7 m ρ c (Proc.devRef .tc main_v46) (ix2 (0 : Fin 1) (j 0)))
      = W4 m ρ c (Proc.devRef .tc main_arg6) := by
  have e : W7 m ρ c (Proc.devRef .tc main_v46)
      = fun i => shapeCast S1x64 (W4 m ρ c (Proc.devRef .tc main_arg6)) shapeCasts_S64_S1x64 i := by
    show StableHlo.after hostOps1_2 (StableHlo.after hostOps1_1 (StableHlo.after hostOps1 (W4 m ρ c))) (Proc.devRef .tc main_v46) = _
    after_results
    rfl
  rw [e]
  funext j
  rw [ValueIdx.eq_ix1 j]
  exact shapeCast_a_1a_apply _ _ 0 (j 0)

set_option maxHeartbeats 2000000 in
/-- A bias reshaped to one row: that row is the bias vector as region 0 left it. -/
theorem W7_row47 (c : Dev nD) :
    (fun j : (⟨1, ![64]⟩ : Shape).Idx => W7 m ρ c (Proc.devRef .tc main_v47) (ix2 (0 : Fin 1) (j 0)))
      = W4 m ρ c (Proc.devRef .tc main_arg8) := by
  have e : W7 m ρ c (Proc.devRef .tc main_v47)
      = fun i => shapeCast S1x64 (W4 m ρ c (Proc.devRef .tc main_arg8)) shapeCasts_S64_S1x64 i := by
    show StableHlo.after hostOps1_2 (StableHlo.after hostOps1_1 (StableHlo.after hostOps1 (W4 m ρ c))) (Proc.devRef .tc main_v47) = _
    after_results
    rfl
  rw [e]
  funext j
  rw [ValueIdx.eq_ix1 j]
  exact shapeCast_a_1a_apply _ _ 0 (j 0)

end Cert.KernelIdeal.Host

end
-- ==== Proof.Bridge.lean ====
/-
  The kernel program's result as a function of its launch arguments, over the extended reals.

  Region 0's output array is the hidden layer relu(agg1 · W0 + b0) of the first aggregate: the reference's second feature
  block h2. The host operations between the regions aggregate that block exactly as the reference aggregates its own h2,
  so region 1 is entered with the reference's second aggregate, its first two feature blocks and the launch weights;
  its output array is then (h1 | h2 | relu(agg2 · W1 + b1)) · Wf + bf, the reference's result.
-/
import proofs.«105910_j84731114815819_1_alg».proof.Proof.Gen.KernelIdeal.Frame
import proofs.«105910_j84731114815819_1_alg».proof.Proof.RefReadP
import proofs.«105910_j84731114815819_1_alg».proof.Proof.Spec
import proofs.«105910_j84731114815819_1_alg».proof.Proof.Block0
import proofs.«105910_j84731114815819_1_alg».proof.Proof.Block1
import proofs.«105910_j84731114815819_1_alg».proof.Proof.RefStages
import proofs.«105910_j84731114815819_1_alg».proof.Proof.HostA1
import proofs.«105910_j84731114815819_1_alg».proof.Proof.HostA2
import proofs.«105910_j84731114815819_1_alg».proof.Proof.HostA3
import proofs.«105910_j84731114815819_1_alg».proof.Proof.HostB1
import proofs.«105910_j84731114815819_1_alg».proof.Proof.HostB2

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- What region 0 leaves in its output array: the reference's second feature block of the launch arguments. -/
theorem h2_value (c : Dev nD) :
    W4 m ρ c (Proc.devRef .tc main_v26)
      = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e24 : V3 m ρ c main_v24 = Cert.ReferenceIdeal.ReadP.val_main_v24 (F := Ideal) (m ((c : Thread nD τ).loc main_arg0)) (m ((c : Thread nD τ).loc main_arg1)) (m ((c : Thread nD τ).loc main_arg2)) := Host.W3_v24 m ρ c
  have e3 : V3 m ρ c main_arg3 = (m ((c : Thread nD τ).loc main_arg3)) := Host.W3_arg3 m ρ c
  refine (W4_arr m ρ c 3).trans ?_
  rw [Region0.final0 (V3 m ρ) c, e24, e3]
  exact (congrArg (Cert.Spec.hidden _ _) (Host.W3_row25 m ρ c)).trans (Cert.ReferenceIdeal.Stages.h2_eq _ _ _ _ _).symm

/-- The result buffer after the run: the reference's result stage of the launch arguments. -/
theorem out_value (c : Dev nD) :
    W8 m ρ c (Proc.devRef .tc main_v48)
      = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h26 := h2_value m ρ c
  -- the buffers region 0 does not write hold at its exit what they held at its entry
  have h3 : W4 m ρ c (Proc.devRef .tc main_v3) = Cert.ReferenceIdeal.ReadP.val_main_v3 (F := Ideal) (m ((c : Thread nD τ).loc main_arg2)) :=
    (W4_of_ne m ρ c main_v3 (by decide)).trans (Host.W3_v3 m ρ c)
  have h5 : W4 m ρ c (Proc.devRef .tc main_v5) = Cert.ReferenceIdeal.ReadP.val_main_v5 (F := Ideal) (m ((c : Thread nD τ).loc main_arg0)) (m ((c : Thread nD τ).loc main_arg2)) :=
    (W4_of_ne m ρ c main_v5 (by decide)).trans (Host.W3_v5 m ρ c)
  have g1 : W4 m ρ c (Proc.devRef .tc main_arg1) = (m ((c : Thread nD τ).loc main_arg1)) := (W4_of_ne m ρ c main_arg1 (by decide)).trans (Host.W3_arg1 m ρ c)
  have g2 : W4 m ρ c (Proc.devRef .tc main_arg2) = (m ((c : Thread nD τ).loc main_arg2)) := (W4_of_ne m ρ c main_arg2 (by decide)).trans (Host.W3_arg2 m ρ c)
  have g5 : W4 m ρ c (Proc.devRef .tc main_arg5) = (m ((c : Thread nD τ).loc main_arg5)) := (W4_of_ne m ρ c main_arg5 (by decide)).trans (Host.W3_arg5 m ρ c)
  have g6 : W4 m ρ c (Proc.devRef .tc main_arg6) = (m ((c : Thread nD τ).loc main_arg6)) := (W4_of_ne m ρ c main_arg6 (by decide)).trans (Host.W3_arg6 m ρ c)
  have g7 : W4 m ρ c (Proc.devRef .tc main_arg7) = (m ((c : Thread nD τ).loc main_arg7)) := (W4_of_ne m ρ c main_arg7 (by decide)).trans (Host.W3_arg7 m ρ c)
  have g8 : W4 m ρ c (Proc.devRef .tc main_arg8) = (m ((c : Thread nD τ).loc main_arg8)) := (W4_of_ne m ρ c main_arg8 (by decide)).trans (Host.W3_arg8 m ρ c)
  -- region 1's operands as it is entered
  have e45 : V7 m ρ c main_v45 = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    Host.W7_v45 m ρ c h3 h26 g1 g2
  have e5 : V7 m ρ c main_v5 = Cert.ReferenceIdeal.ReadP.val_main_v5 (F := Ideal) (m ((c : Thread nD τ).loc main_arg0)) (m ((c : Thread nD τ).loc main_arg2)) := (Host.W7_v5 m ρ c).trans h5
  have e26 : V7 m ρ c main_v26 = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Host.W7_v26 m ρ c).trans h26
  have ea5 : V7 m ρ c main_arg5 = (m ((c : Thread nD τ).loc main_arg5)) := (Host.W7_arg5 m ρ c).trans g5
  have ea7 : V7 m ρ c main_arg7 = (m ((c : Thread nD τ).loc main_arg7)) := (Host.W7_arg7 m ρ c).trans g7
  have r46 : (fun j : (⟨1, ![64]⟩ : Shape).Idx => V7 m ρ c main_v46 (ix2 (0 : Fin 1) (j 0))) = (m ((c : Thread nD τ).loc main_arg6)) :=
    (Host.W7_row46 m ρ c).trans g6
  have r47 : (fun j : (⟨1, ![64]⟩ : Shape).Idx => V7 m ρ c main_v47 (ix2 (0 : Fin 1) (j 0))) = (m ((c : Thread nD τ).loc main_arg8)) :=
    (Host.W7_row47 m ρ c).trans g8
  refine (W8_arr m ρ c 7).trans ?_
  rw [Region1.final1 (V7 m ρ) c, e45, e5, e26, ea5, ea7]
  refine Eq.trans ?_ (Cert.ReferenceIdeal.Stages.out_eq _ _ _ _ _ _ _ _ _).symm
  exact (congrArg (fun b1 => Cert.Spec.project _ _ (Cert.Spec.embed _ _ b1) _ _) r46).trans
    (congrArg (Cert.Spec.project _ _ _ _) r47)

end Cert.KernelIdeal.Bridge

end
-- ==== Proof.lean ====
/-
  The kernel computes a two-layer graph network's forward pass: in-degrees and the first feature block h1 on the host,
  a neighbour-mean aggregation before each of two Pallas kernels, the first kernel the dense layer
  h2 = relu(agg(h1) · W0 + b0) over row blocks, the second h3 = relu(agg(h2) · W1 + b1) fused with the projection
  (h1 | h2 | h3) · Wf + bf. The reference computes the same with jnp's dot_general on whole arrays.

  Over the extended reals the two agree entry by entry: the kernels' casts to the narrower float format are the identity,
  each block product into a zero accumulator is the plain sum over the contracted index — the same sum the host's
  dot_general is — the row blocks tile the arrays, and the aggregation steps are the same host operations on both
  sides, applied to equal arrays. No law that needs finite values is used, so the precondition is never opened.

  The three frames are the generated runs (the reference's its run with the result dropped); the idealization rewrote
  nothing, so `preserves` is `True`; `algebraic` states both runs' result as the reference's result stage of the
  launch arguments.
-/
import proofs.«105910_j84731114815819_1_alg».proof.Defs
import proofs.«105910_j84731114815819_1_alg».proof.Proof.Gen.Kernel
import proofs.«105910_j84731114815819_1_alg».proof.Proof.Gen.Kernel.Frame
import proofs.«105910_j84731114815819_1_alg».proof.Proof.Gen.KernelIdeal
import proofs.«105910_j84731114815819_1_alg».proof.Proof.Gen.KernelIdeal.Frame
import proofs.«105910_j84731114815819_1_alg».proof.Proof.Gen.ReferenceIdeal
import proofs.«105910_j84731114815819_1_alg».proof.Proof.Gen.Pre_finite_inputs
import proofs.«105910_j84731114815819_1_alg».proof.Proof.KernelRunP
import proofs.«105910_j84731114815819_1_alg».proof.Proof.RefRunP
import proofs.«105910_j84731114815819_1_alg».proof.Proof.RefReadP
import proofs.«105910_j84731114815819_1_alg».proof.Proof.Bridge
import Idealize.ShloMosaic.Adequacy
import Idealize.ShloMosaic.Init

noncomputable section

namespace Cert.Proof

open Idealize.ShloMosaic Idealize.SL.Sem

/-- Both idealized programs end with the reference's result stage of the (agreeing) launch arguments. -/
theorem algebraic : Cert.algebraic_KernelIdeal_ReferenceIdeal := by
  intro m ρ m' ρ' _ hagree
  refine ⟨fun c => Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Bridge.out_value m ρ c), (h c).2⟩)
      (Cert.KernelIdeal.GenRun.run_out (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.ReadP.val_main_v58_eq m' c, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.ValueP.run (F := Ideal) m ρ),
    trivial,
    algebraic⟩

end Cert.Proof

end
